-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S128x256 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S850000x256 : Shape := ⟨2, ![850000, 256]⟩
abbrev S1x128 : Shape := ⟨2, ![1, 128]⟩

abbrev nBuf : Space → Nat
  | .hbm => 81
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S128x256, .f32⟩
  | .hbm, ⟨62, _⟩ => ⟨S50000x256, .f32⟩
  | .hbm, ⟨63, _⟩ => ⟨S850000x1, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x256, .f32⟩
  | .hbm, ⟨73, _⟩ => ⟨S850000x256, .f32⟩
  | .hbm, ⟨74, _⟩ => ⟨S850000x256, .f32⟩
  | .hbm, ⟨75, _⟩ => ⟨S_, .f32⟩
  | .hbm, ⟨76, _⟩ => ⟨S50000x256, .f32⟩
  | .hbm, ⟨77, _⟩ => ⟨S850000x1, .i32⟩
  | .hbm, ⟨78, _⟩ => ⟨S50000x256, .f32⟩
  | .hbm, ⟨79, _⟩ => ⟨S256x128, .f32⟩
  | .hbm, ⟨80, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S128x256_S256x128_1_0 : S128x256.Transposes [1, 0] S256x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v41) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S1x256 : Shape := ⟨2, ![1, 256]⟩
abbrev S850000x256 : Shape := ⟨2, ![850000, 256]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S128x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x256, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S256x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S850000x1_S850000x256_0_1 : S850000x1.BroadcastsInDim S850000x256 (![0, 1] : Fin 2 → Fin S850000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SparseStage.lean ====
/-
  The sparse half of the network, shared word for word by both programs, named once.

  From the edge list e : i32[2, 800000] both programs build the same normalised adjacency: the row and column endpoints
  with the 50000 self loops appended, the degree of each node (a scatter-add of ones over the rows), d = max(deg, 1)^(-1/2),
  and the edge weight d[row]·d[col], each endpoint first wrapped into range (a negative index gets 50000 added).  One
  aggregation step sends node features X to the scatter-add over the rows of weight · X[col]; it is applied at width 128
  and at width 256.  Each step is stated first over its operands (row and column endpoints, a node vector, edge weights),
  then from the edge list.  Nothing here is opened by the certificate: the two programs apply these same functions, and only
  the dense layers between them are spelt differently.

  The second half states the reference's result over these names: two aggregation steps with a rectified dense layer
  between them and an affine dense layer after, each dense layer in the host's spelling.
-/
import proofs.«122775_j40226663694509_1_alg».proof.Proof.Gen.ReferenceIdeal.Run

noncomputable section

namespace Cert.SparseStage

open Idealize.ShloMosaic Idealize.ShloMosaic.TcCoe Idealize.SL.Sem
open Cert.ReferenceIdeal Cert.ReferenceIdeal.Gen

variable {F : FTy → Type} [FloatOps F]

/-- Row endpoints: the first row of the edge list, then the self loops 0 … 49999. -/
def rowIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Column endpoints: the second row of the edge list, then the self loops. -/
def colIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index wrapped into range: a negative one gets the node count added. -/
def wrap (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- Node degrees: ones scatter-added over the row endpoints. -/
def degreeOf (row : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 row) (broadcastInDim S850000 ![] bcast_S_S850000 (constant S_ .f32 0x3F800000#32))

/-- The degrees clipped from below by a scalar (the programs pass 1). -/
def clipOf (lo : (⟨S_, .f32⟩ : BufTy).Contents (Elt F)) (deg : (⟨S50000, .f32⟩ : BufTy).Contents (Elt F)) : (⟨S50000, .f32⟩ : BufTy).Contents (Elt F) :=
  maximumf (broadcastInDim S50000 ![] bcast_S_S50000 (id lo)) deg

/-- The power -1/2, entry by entry. -/
def invSqrtOf (d : (⟨S50000, .f32⟩ : BufTy).Contents (Elt F)) : (⟨S50000, .f32⟩ : BufTy).Contents (Elt F) :=
  Host.powf d (broadcastInDim S50000 ![] bcast_S_S50000 (constant S_ .f32 0xBF000000#32))

/-- The weight of each edge: the two endpoints' values of a node vector multiplied, each endpoint wrapped into range. -/
def edgeWeightOf (row col : (⟨S850000, .i32⟩ : BufTy).Contents (Elt F)) (d : (⟨S50000, .f32⟩ : BufTy).Contents (Elt F)) : (⟨S850000, .f32⟩ : BufTy).Contents (Elt F) :=
  mulf (Host.gather gather_S50000_S850000x1_S850000_n_0_n_n_0_1_1 d (broadcastInDim S850000x1 ![0] bcast_S850000_S850000x1_0 (wrap row))) (Host.gather gather_S50000_S850000x1_S850000_n_0_n_n_0_1_1 d (broadcastInDim S850000x1 ![0] bcast_S850000_S850000x1_0 (wrap col)))

/-- One aggregation step at width 128: out[row] += weight · X[col]. -/
def aggregate128Of (row col : (⟨S850000, .i32⟩ : BufTy).Contents (Elt F)) (wgt : (⟨S850000, .f32⟩ : BufTy).Contents (Elt F)) (x : (⟨S50000x128, .f32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 row) (mulf (broadcastInDim S850000x128 ![0, 1] bcast_S850000x1_S850000x128_0_1 (broadcastInDim S850000x1 ![0] bcast_S850000_S850000x1_0 wgt)) (Host.gather gather_S50000x128_S850000x1_S850000x128_1_0_n_n_0_1_1128 x (broadcastInDim S850000x1 ![0] bcast_S850000_S850000x1_0 (wrap col))))

/-- One aggregation step at width 256. -/
def aggregate256Of (row col : (⟨S850000, .i32⟩ : BufTy).Contents (Elt F)) (wgt : (⟨S850000, .f32⟩ : BufTy).Contents (Elt F)) (h : (⟨S50000x256, .f32⟩ : BufTy).Contents (Elt F)) :
    (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 row) (mulf (broadcastInDim S850000x256 ![0, 1] bcast_S850000x1_S850000x256_0_1 (broadcastInDim S850000x1 ![0] bcast_S850000_S850000x1_0 wgt)) (Host.gather gather_S50000x256_S850000x1_S850000x256_1_0_n_n_0_1_1256 h (broadcastInDim S850000x1 ![0] bcast_S850000_S850000x1_0 (wrap col))))

/-! ## The same, from the edge list -/

/-- The clipped degrees max(deg, 1). -/
def clippedDeg (e : (⟨S2x800000, .i32⟩ : BufTy).Contents (Elt F)) : (⟨S50000, .f32⟩ : BufTy).Contents (Elt F) :=
  clipOf (constant S_ .f32 0x3F800000#32) (degreeOf (rowIdx e))

/-- The edge weights max(deg, 1)^(-1/2) at the row endpoint times the same at the column endpoint. -/
def edgeWeight (e : (⟨S2x800000, .i32⟩ : BufTy).Contents (Elt F)) : (⟨S850000, .f32⟩ : BufTy).Contents (Elt F) :=
  edgeWeightOf (rowIdx e) (colIdx e) (invSqrtOf (clippedDeg e))

/-- One aggregation step at width 128. -/
def aggregate128 (e : (⟨S2x800000, .i32⟩ : BufTy).Contents (Elt F)) (x : (⟨S50000x128, .f32⟩ : BufTy).Contents (Elt F)) : (⟨S50000x128, .f32⟩ : BufTy).Contents (Elt F) :=
  aggregate128Of (rowIdx e) (colIdx e) (edgeWeight e) x

/-- One aggregation step at width 256. -/
def aggregate256 (e : (⟨S2x800000, .i32⟩ : BufTy).Contents (Elt F)) (h : (⟨S50000x256, .f32⟩ : BufTy).Contents (Elt F)) : (⟨S50000x256, .f32⟩ : BufTy).Contents (Elt F) :=
  aggregate256Of (rowIdx e) (colIdx e) (edgeWeight e) h

/-! ## The reference's result over these names -/

/-- The reference: aggregate, rectified dense layer (host spelling), aggregate, affine dense layer (host spelling). -/
def refResult (e : (⟨S2x800000, .i32⟩ : BufTy).Contents (Elt F)) (x : (⟨S50000x128, .f32⟩ : BufTy).Contents (Elt F))
    (w1 : (⟨S256x128, .f32⟩ : BufTy).Contents (Elt F)) (b1 : (⟨S256, .f32⟩ : BufTy).Contents (Elt F))
    (w2 : (⟨S128x256, .f32⟩ : BufTy).Contents (Elt F)) (b2 : (⟨S128, .f32⟩ : BufTy).Contents (Elt F)) :
    (⟨S50000x128, .f32⟩ : BufTy).Contents (Elt F) :=
  addf (Host.dotGeneral dot_S50000x256_S256x128_S50000x128_1_0_0_1_n_n none (aggregate256 e (maximumf (addf (Host.dotGeneral dot_S50000x128_S128x256_S50000x256_1_0_0_1_n_n none (aggregate128 e x) (transpose S128x256 [1, 0] w1 transposes_S256x128_S128x256_1_0)) (broadcastInDim S50000x256 ![0, 1] bcast_S1x256_S50000x256_0_1 (broadcastInDim S1x256 ![1] bcast_S256_S1x256_1 b1))) (broadcastInDim S50000x256 ![] bcast_S_S50000x256 (constant S_ .f32 0x00000000#32)))) (transpose S256x128 [1, 0] w2 transposes_S128x256_S256x128_1_0)) (broadcastInDim S50000x128 ![0, 1] bcast_S1x128_S50000x128_0_1 (broadcastInDim S1x128 ![1] bcast_S128_S1x128_1 b2))

set_option maxRecDepth 8192 in
/-- The reference run's result term is that composition of the launch contents. -/
theorem res_eq (m : (ℓ : Loc nD τ sig) → Buf (Elt F) ℓ) (c : Dev nD) :
    Cert.ReferenceIdeal.Value.res_main_v65 m c
      = refResult (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v65
  rfl

end Cert.SparseStage

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«122775_j40226663694509_1_alg».proof.Proof.LibMatmul
import proofs.«122775_j40226663694509_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.RefValue.lean ====
/-
  The reference's result with its two dense layers read as whole-array functions.

  Between and after the shared aggregation steps the reference applies a dense layer in the host's spelling: a
  dot_general against the transposed weight, the bias through two broadcast_in_dim, and (first layer) a maximum against a
  broadcast zero.  At the ideal values these are the rectified and the affine map of Proof/LibDense.lean, so the
  reference's result is: aggregate, rectified dense layer, aggregate, affine dense layer.
-/
import proofs.«122775_j40226663694509_1_alg».proof.Proof.SparseStage
import proofs.«122775_j40226663694509_1_alg».proof.Proof.LibDense

noncomputable section

namespace Cert.RefValue

open Idealize.ShloMosaic
open Cert.ReferenceIdeal Cert.ReferenceIdeal.Gen
open Cert.SparseStage Cert.Lib.Dense

/-- The network as one function of its six inputs, the dense layers as whole-array functions. -/
def network (e : (⟨S2x800000, .i32⟩ : BufTy).Contents (Elt Ideal)) (x : (⟨S50000x128, .f32⟩ : BufTy).Contents (Elt Ideal))
    (w1 : (⟨S256x128, .f32⟩ : BufTy).Contents (Elt Ideal)) (b1 : (⟨S256, .f32⟩ : BufTy).Contents (Elt Ideal))
    (w2 : (⟨S128x256, .f32⟩ : BufTy).Contents (Elt Ideal)) (b2 : (⟨S128, .f32⟩ : BufTy).Contents (Elt Ideal)) :
    (⟨S50000x128, .f32⟩ : BufTy).Contents (Elt Ideal) :=
  affine (aggregate256 e (rectified (aggregate128 e x) (transpose S128x256 [1, 0] w1 transposes_S256x128_S128x256_1_0) b1))
    (transpose S256x128 [1, 0] w2 transposes_S128x256_S256x128_1_0) b2

/-- The reference's composition is the network: each host-spelt dense layer is the whole-array map. -/
theorem refResult_eq (e : (⟨S2x800000, .i32⟩ : BufTy).Contents (Elt Ideal)) (x : (⟨S50000x128, .f32⟩ : BufTy).Contents (Elt Ideal))
    (w1 : (⟨S256x128, .f32⟩ : BufTy).Contents (Elt Ideal)) (b1 : (⟨S256, .f32⟩ : BufTy).Contents (Elt Ideal))
    (w2 : (⟨S128x256, .f32⟩ : BufTy).Contents (Elt Ideal)) (b2 : (⟨S128, .f32⟩ : BufTy).Contents (Elt Ideal)) :
    refResult e x w1 b1 w2 b2 = network e x w1 b1 w2 b2 := by
  have h1 : maximumf (addf (Host.dotGeneral dot_S50000x128_S128x256_S50000x256_1_0_0_1_n_n none (aggregate128 e x)
        (transpose S128x256 [1, 0] w1 transposes_S256x128_S128x256_1_0))
      (broadcastInDim S50000x256 ![0, 1] bcast_S1x256_S50000x256_0_1 (broadcastInDim S1x256 ![1] bcast_S256_S1x256_1 b1)))
      (broadcastInDim S50000x256 ![] bcast_S_S50000x256 (constant (F := Ideal) S_ .f32 0x00000000#32))
      = rectified (aggregate128 e x) (transpose S128x256 [1, 0] w1 transposes_S256x128_S128x256_1_0) b1 :=
    host_rectified (A := 50000) (K := 128) (C := 256) _ _ _ _ _ _ none
  unfold refResult network
  rw [h1]
  exact host_affine (A := 50000) (K := 256) (C := 128) _ _ _ _ _ none

end Cert.RefValue

end
-- ==== Proof.KernelStretches.lean ====
/-
  The kernel program's four stretches of host operations, each read as the shared functions of Proof/SparseStage.lean
  of the contents it starts from.

  A stretch is a list of operations folded over ANY contents Fv of the buffers.  The first stretch builds the row and
  column endpoints and the degrees from the edge list; the second (an outlined clip) bounds the degrees below; the third
  takes the power -1/2, forms the edge weights, aggregates the features and transposes W1; the fourth, after the first
  kernel region, aggregates that region's output with the same endpoints and weights and transposes W2.  Every other
  buffer a later stretch or region reads passes through unchanged.  The two programs print the same operations, so each
  stretch's term is the shared function by unfolding its name.
-/
import proofs.«122775_j40226663694509_1_alg».proof.Proof.Gen.KernelIdeal.Launch
import proofs.«122775_j40226663694509_1_alg».proof.Proof.SparseStage
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen
open Cert.SparseStage

variable {F : FTy → Type} [FloatOps F]

/-! ## The first stretch: endpoints and degrees -/

/-- The row endpoints. -/
theorem first_row (Fv : Valuation τ sig (Elt F)) :
    after hostOps0 Fv (Proc.devRef .tc main_v5) = rowIdx (Fv (Proc.devRef .tc main_arg1)) := by
  dsimp only [hostOps0]
  after_results
  rfl

/-- The column endpoints. -/
theorem first_col (Fv : Valuation τ sig (Elt F)) :
    after hostOps0 Fv (Proc.devRef .tc main_v6) = colIdx (Fv (Proc.devRef .tc main_arg1)) := by
  dsimp only [hostOps0]
  after_results
  rfl

/-- The degrees. -/
theorem first_deg (Fv : Valuation τ sig (Elt F)) :
    after hostOps0 Fv (Proc.devRef .tc main_v10) = degreeOf (rowIdx (Fv (Proc.devRef .tc main_arg1))) := by
  dsimp only [hostOps0]
  after_results
  rfl

/-- The scalar the clip is called with. -/
theorem first_one (Fv : Valuation τ sig (Elt F)) :
    after hostOps0 Fv (Proc.devRef .tc main_cst_1) = constant (F := F) Cert.ReferenceIdeal.S_ .f32 0x3F800000#32 := by
  dsimp only [hostOps0]
  after_results

theorem first_arg0 (Fv : Valuation τ sig (Elt F)) :
    after hostOps0 Fv (Proc.devRef .tc main_arg0) = Fv (Proc.devRef .tc main_arg0) := by
  dsimp only [hostOps0]
  after_results
theorem first_arg2 (Fv : Valuation τ sig (Elt F)) :
    after hostOps0 Fv (Proc.devRef .tc main_arg2) = Fv (Proc.devRef .tc main_arg2) := by
  dsimp only [hostOps0]
  after_results
theorem first_arg3 (Fv : Valuation τ sig (Elt F)) :
    after hostOps0 Fv (Proc.devRef .tc main_arg3) = Fv (Proc.devRef .tc main_arg3) := by
  dsimp only [hostOps0]
  after_results
theorem first_arg4 (Fv : Valuation τ sig (Elt F)) :
    after hostOps0 Fv (Proc.devRef .tc main_arg4) = Fv (Proc.devRef .tc main_arg4) := by
  dsimp only [hostOps0]
  after_results
theorem first_arg5 (Fv : Valuation τ sig (Elt F)) :
    after hostOps0 Fv (Proc.devRef .tc main_arg5) = Fv (Proc.devRef .tc main_arg5) := by
  dsimp only [hostOps0]
  after_results

/-! ## The second stretch: the clip -/

/-- The degrees bounded below. -/
theorem clip_deg (Fv : Valuation τ sig (Elt F)) :
    after hostOps0_1 Fv (Proc.devRef .tc main_v11) = clipOf (Fv (Proc.devRef .tc main_cst_1)) (Fv (Proc.devRef .tc main_v10)) := by
  dsimp only [hostOps0_1]
  after_results
  rfl

theorem clip_v5 (Fv : Valuation τ sig (Elt F)) :
    after hostOps0_1 Fv (Proc.devRef .tc main_v5) = Fv (Proc.devRef .tc main_v5) := by
  dsimp only [hostOps0_1]
  after_results
theorem clip_v6 (Fv : Valuation τ sig (Elt F)) :
    after hostOps0_1 Fv (Proc.devRef .tc main_v6) = Fv (Proc.devRef .tc main_v6) := by
  dsimp only [hostOps0_1]
  after_results
theorem clip_arg0 (Fv : Valuation τ sig (Elt F)) :
    after hostOps0_1 Fv (Proc.devRef .tc main_arg0) = Fv (Proc.devRef .tc main_arg0) := by
  dsimp only [hostOps0_1]
  after_results
theorem clip_arg2 (Fv : Valuation τ sig (Elt F)) :
    after hostOps0_1 Fv (Proc.devRef .tc main_arg2) = Fv (Proc.devRef .tc main_arg2) := by
  dsimp only [hostOps0_1]
  after_results
theorem clip_arg3 (Fv : Valuation τ sig (Elt F)) :
    after hostOps0_1 Fv (Proc.devRef .tc main_arg3) = Fv (Proc.devRef .tc main_arg3) := by
  dsimp only [hostOps0_1]
  after_results
theorem clip_arg4 (Fv : Valuation τ sig (Elt F)) :
    after hostOps0_1 Fv (Proc.devRef .tc main_arg4) = Fv (Proc.devRef .tc main_arg4) := by
  dsimp only [hostOps0_1]
  after_results
theorem clip_arg5 (Fv : Valuation τ sig (Elt F)) :
    after hostOps0_1 Fv (Proc.devRef .tc main_arg5) = Fv (Proc.devRef .tc main_arg5) := by
  dsimp only [hostOps0_1]
  after_results

/-! ## The third stretch: weights, first aggregation, W1 transposed -/

/-- The edge weights. -/
theorem third_weight (Fv : Valuation τ sig (Elt F)) :
    after hostOps0_2 Fv (Proc.devRef .tc main_v28) = edgeWeightOf (Fv (Proc.devRef .tc main_v5)) (Fv (Proc.devRef .tc main_v6)) (invSqrtOf (Fv (Proc.devRef .tc main_v11))) := by
  dsimp only [hostOps0_2]
  after_results_simp
  rfl

/-- The aggregated features. -/
theorem third_inp (Fv : Valuation τ sig (Elt F)) :
    after hostOps0_2 Fv (Proc.devRef .tc main_v41) = aggregate128Of (Fv (Proc.devRef .tc main_v5)) (Fv (Proc.devRef .tc main_v6)) (edgeWeightOf (Fv (Proc.devRef .tc main_v5)) (Fv (Proc.devRef .tc main_v6)) (invSqrtOf (Fv (Proc.devRef .tc main_v11)))) (Fv (Proc.devRef .tc main_arg0)) := by
  dsimp only [hostOps0_2]
  after_results_simp
  rfl

/-- W1 transposed. -/
theorem third_wgt (Fv : Valuation τ sig (Elt F)) :
    after hostOps0_2 Fv (Proc.devRef .tc main_v42) = transpose Cert.ReferenceIdeal.S128x256 [1, 0] (Fv (Proc.devRef .tc main_arg2)) Cert.ReferenceIdeal.Gen.transposes_S256x128_S128x256_1_0 := by
  dsimp only [hostOps0_2]
  after_results_simp

theorem third_v5 (Fv : Valuation τ sig (Elt F)) :
    after hostOps0_2 Fv (Proc.devRef .tc main_v5) = Fv (Proc.devRef .tc main_v5) := by
  dsimp only [hostOps0_2]
  after_results_simp
theorem third_v6 (Fv : Valuation τ sig (Elt F)) :
    after hostOps0_2 Fv (Proc.devRef .tc main_v6) = Fv (Proc.devRef .tc main_v6) := by
  dsimp only [hostOps0_2]
  after_results_simp
theorem third_arg3 (Fv : Valuation τ sig (Elt F)) :
    after hostOps0_2 Fv (Proc.devRef .tc main_arg3) = Fv (Proc.devRef .tc main_arg3) := by
  dsimp only [hostOps0_2]
  after_results_simp
theorem third_arg4 (Fv : Valuation τ sig (Elt F)) :
    after hostOps0_2 Fv (Proc.devRef .tc main_arg4) = Fv (Proc.devRef .tc main_arg4) := by
  dsimp only [hostOps0_2]
  after_results_simp
theorem third_arg5 (Fv : Valuation τ sig (Elt F)) :
    after hostOps0_2 Fv (Proc.devRef .tc main_arg5) = Fv (Proc.devRef .tc main_arg5) := by
  dsimp only [hostOps0_2]
  after_results_simp

/-! ## The fourth stretch: second aggregation, W2 transposed -/

/-- The first region's output aggregated. -/
theorem fourth_inp (Fv : Valuation τ sig (Elt F)) :
    after hostOps1 Fv (Proc.devRef .tc main_v56) = aggregate256Of (Fv (Proc.devRef .tc main_v5)) (Fv (Proc.devRef .tc main_v6)) (Fv (Proc.devRef .tc main_v28)) (Fv (Proc.devRef .tc main_v43)) := by
  dsimp only [hostOps1]
  after_results_simp
  rfl

/-- W2 transposed. -/
theorem fourth_wgt (Fv : Valuation τ sig (Elt F)) :
    after hostOps1 Fv (Proc.devRef .tc main_v57) = transpose Cert.ReferenceIdeal.S256x128 [1, 0] (Fv (Proc.devRef .tc main_arg4)) Cert.ReferenceIdeal.Gen.transposes_S128x256_S256x128_1_0 := by
  dsimp only [hostOps1]
  after_results_simp

theorem fourth_arg5 (Fv : Valuation τ sig (Elt F)) :
    after hostOps1 Fv (Proc.devRef .tc main_arg5) = Fv (Proc.devRef .tc main_arg5) := by
  dsimp only [hostOps1]
  after_results_simp

end Cert.KernelIdeal.Stretch

end
-- ==== Proof.Region0Value.lean ====
/-
  What the first kernel region leaves in its output array, for ANY contents V the region is entered from.

  The region runs one body over ten row blocks of 5000 rows: the body multiplies its row block by the whole weight
  matrix (operands narrowed to bf16, the identity on the extended reals), adds the bias row and takes the maximum with
  zero.  Entry (p, q) of block t depends on row 5000·t + p of the input only, so every block written back is the
  corresponding block of ONE whole-array function, the rectified dense layer of the whole input
  (Proof/LibDense.lean); the ten blocks tile the 50000 rows, so the output array ends holding that function.
-/
import proofs.«122775_j40226663694509_1_alg».proof.Proof.Gen.KernelIdeal.Frame
import proofs.«122775_j40226663694509_1_alg».proof.Proof.LibDense
import Idealize.ShloMosaic.Lib.Pipeline.Value
import Idealize.ShloMosaic.Lib.Tactic

set_option maxRecDepth 16384

noncomputable section

namespace Cert.KernelIdeal.Region0Value

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## rows · W1ᵀ + b1, rectified -/

/-- The body's one stored value is the rectified dense map of the three loaded blocks. -/
theorem pay0_eq (x0 : Vec Ideal S5000x128 .f32) (x1 : Vec Ideal S128x256 .f32) (x2 : Vec Ideal S256 .f32) :
    k0_pay1 (F := Ideal) x0 x1 x2 = rectified x0 x1 x2 := by
  unfold k0_pay1
  exact mxu_rectified x0 x1 x2 _ _ _ _ _ none

/-- The printed index maps over the grid: the row-block windows move with the point, the weight and the bias stay put. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row p of block t is row 5000·t + p of the array, and it is a row of the array. -/
theorem row0_lt (t : Fin cfg0.N) (p : Fin 5000) : t.val * 5000 + p.val < 50000 := by
  have h : t.val < 10 := lt_of_lt_of_eq t.isLt N_0
  have := p.isLt
  omega

/-- The arrays the region reads, as it finds them, at their literal types. -/
abbrev inp0 (c : Dev nD) : S50000x128.Idx → EReal := V c main_v41
abbrev wgt0 (c : Dev nD) : S128x256.Idx → EReal := V c main_v42
abbrev bias0 (c : Dev nD) : S256.Idx → EReal := V c main_arg3

/-- The input window's block at point t, at (p, k), is the array at row 5000·t + p, column k. -/
theorem read0_0 (c : Dev nD) (t : Fin cfg0.N) (p : Fin 5000) (k : Fin 128) :
    (iblk0 V c 0 t : Vec Ideal S5000x128 .f32) (ix2 p k) = inp0 V c (ix2 ⟨t.val * 5000 + p.val, row0_lt t p⟩ k) := by
  obtain ⟨e0, e1, -⟩ := idx0 t
  unfold iblk0
  rw [View.read_apply]
  show V c main_v41 _ = V c main_v41 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The weight window's block is the whole weight array at every point. -/
theorem read0_1 (c : Dev nD) (t : Fin cfg0.N) (k : Fin 128) (q : Fin 256) :
    (iblk0 V c 1 t : Vec Ideal S128x256 .f32) (ix2 k q) = wgt0 V c (ix2 k q) := by
  obtain ⟨-, -, e0, e1, -⟩ := idx0 t
  unfold iblk0
  rw [View.read_apply]
  show V c main_v42 _ = V c main_v42 _
  congr 1
  funext a
  apply Fin.ext
  match a with
  | ⟨0, _⟩ => show win0_1.index t 0 * 128 + 1 * k.val = k.val; rw [e0]; omega
  | ⟨1, _⟩ => show win0_1.index t 1 * 256 + 1 * q.val = q.val; rw [e1]; omega

/-- The bias window's block is the whole bias vector at every point. -/
theorem read0_2 (c : Dev nD) (t : Fin cfg0.N) (q : Fin 256) :
    (iblk0 V c 2 t : Vec Ideal S256 .f32) (ix1 q) = bias0 V c (ix1 q) := by
  obtain ⟨-, -, -, -, e0, -⟩ := idx0 t
  unfold iblk0
  rw [View.read_apply]
  show V c main_arg3 _ = V c main_arg3 _
  congr 1
  funext a
  apply Fin.ext
  match a with
  | ⟨0, _⟩ => show win0_2.index t 0 * 256 + 1 * q.val = q.val; rw [e0]; omega

/-- Entry (p, q) of the output window's block at point t sits at row 5000·t + p, column q of the output array. -/
theorem emb0_3 (t : Fin cfg0.N) (p : Fin 5000) (q : Fin 256) :
    ((cfg0.win 3).blk t).view.emb (ix2 p q) = (ix2 ⟨t.val * 5000 + p.val, row0_lt t p⟩ q : S50000x256.Idx) := by
  obtain ⟨-, -, -, -, -, e0, e1⟩ := idx0 t
  funext a
  apply Fin.ext
  match a with
  | ⟨0, _⟩ => show win0_3.index t 0 * 5000 + 1 * p.val = t.val * 5000 + p.val; rw [e0]; omega
  | ⟨1, _⟩ => show win0_3.index t 1 * 256 + 1 * q.val = q.val; rw [e1]; omega

/-- What point t writes back is block t of the rectified dense map of the WHOLE arrays: a row of the product only reads
    that row of the input, and the weight and bias blocks are the whole arrays. -/
theorem flushed0 (c : Dev nD) (t : Fin cfg0.N) :
    (dat0 V c).flushed 3 t
      = ((cfg0.win 3).blk t).view.read (Elt Ideal) (rectified (inp0 V c) (wgt0 V c) (bias0 V c)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x256) hz2, View.ld_unit_zero (S := S256) hz1]
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (ix2 p q)
    = rectified (inp0 V c) (wgt0 V c) (bias0 V c) (((cfg0.win 3).blk t).view.emb (ix2 p q))
  rw [emb0_3 t p q]
  refine (congrFun (pay0_eq (iblk0 V c 0 t) (iblk0 V c 1 t) (iblk0 V c 2 t)) (ix2 p q)).trans ?_
  rw [rectified_apply, rectified_apply]
  simp only [read0_0 V c t p, read0_1 V c t, read0_2 V c t]

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v43).slice (win0_3.rect t)).set ↔ _
  rw [View.set_slice_whole, Rect.mem_set_unit]
  exact Iff.rfl

/-- Every row r of the output lies in the block of point r / 5000, which is written back. -/
theorem covered0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, e0, e1⟩ := idx0 t
  refine ⟨t, flush0_3 t, ?_⟩
  rw [mem_blk0]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 256 ≤ (i 1).val ∧ (i 1).val < win0_3.index t 1 * 256 + 256
    rw [e1]; omega

/-- So the region leaves its output array at the rectified dense map of the arrays it found. -/
theorem final0 (c : Dev nD) :
    (dat0 V c).arrAt 3 cfg0.N = rectified (inp0 V c) (wgt0 V c) (bias0 V c) :=
  (dat0 V c).arrAt_eq_of_cover 3 _ (fun t _ => flushed0 V c t) covered0

end Cert.KernelIdeal.Region0Value

end
-- ==== Proof.Region1Value.lean ====
/- What the second kernel region leaves in its output array, for ANY contents V the region is entered from.

  The region runs one body over ten row blocks of 5000 rows: the body multiplies its row block by the whole weight
  matrix (operands narrowed to bf16, the identity on the extended reals) and adds the bias row.  Entry (p, q) of block t
  depends on row 5000·t + p of the input only, so every block written back is the corresponding block of ONE
  whole-array function, the affine dense layer of the whole input (Proof/LibDense.lean); the ten blocks tile the
  50000 rows, so the output array ends holding that function.
-/
import proofs.«122775_j40226663694509_1_alg».proof.Proof.Gen.KernelIdeal.Frame
import proofs.«122775_j40226663694509_1_alg».proof.Proof.LibDense
import Idealize.ShloMosaic.Lib.Pipeline.Value
import Idealize.ShloMosaic.Lib.Tactic

set_option maxRecDepth 16384

noncomputable section

namespace Cert.KernelIdeal.Region1Value

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## rows · W2ᵀ + b2 -/

/-- The body's one stored value is the affine dense map of the three loaded blocks. -/
theorem pay1_eq (x0 : Vec Ideal S5000x256 .f32) (x1 : Vec Ideal S256x128 .f32) (x2 : Vec Ideal S128 .f32) :
    k1_pay1 (F := Ideal) x0 x1 x2 = affine x0 x1 x2 := by
  unfold k1_pay1
  exact mxu_affine x0 x1 x2 _ _ _ _ _ none

/-- The printed index maps over the grid: the row-block windows move with the point, the weight and the bias stay put. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row p of block t is row 5000·t + p of the array, and it is a row of the array. -/
theorem row1_lt (t : Fin cfg1.N) (p : Fin 5000) : t.val * 5000 + p.val < 50000 := by
  have h : t.val < 10 := lt_of_lt_of_eq t.isLt N_1
  have := p.isLt
  omega

/-- The arrays the region reads, as it finds them, at their literal types. -/
abbrev inp1 (c : Dev nD) : S50000x256.Idx → EReal := V c main_v56
abbrev wgt1 (c : Dev nD) : S256x128.Idx → EReal := V c main_v57
abbrev bias1 (c : Dev nD) : S128.Idx → EReal := V c main_arg5

/-- The input window's block at point t, at (p, k), is the array at row 5000·t + p, column k. -/
theorem read1_0 (c : Dev nD) (t : Fin cfg1.N) (p : Fin 5000) (k : Fin 256) :
    (iblk1 V c 0 t : Vec Ideal S5000x256 .f32) (ix2 p k) = inp1 V c (ix2 ⟨t.val * 5000 + p.val, row1_lt t p⟩ k) := by
  obtain ⟨e0, e1, -⟩ := idx1 t
  unfold iblk1
  rw [View.read_apply]
  show V c main_v56 _ = V c main_v56 _
  congr 1
  funext a
  apply Fin.ext
  match a with
  | ⟨0, _⟩ => show win1_0.index t 0 * 5000 + 1 * p.val = t.val * 5000 + p.val; rw [e0]; omega
  | ⟨1, _⟩ => show win1_0.index t 1 * 256 + 1 * k.val = k.val; rw [e1]; omega

/-- The weight window's block is the whole weight array at every point. -/
theorem read1_1 (c : Dev nD) (t : Fin cfg1.N) (k : Fin 256) (q : Fin 128) :
    (iblk1 V c 1 t : Vec Ideal S256x128 .f32) (ix2 k q) = wgt1 V c (ix2 k q) := by
  obtain ⟨-, -, e0, e1, -⟩ := idx1 t
  unfold iblk1
  rw [View.read_apply]
  show V c main_v57 _ = V c main_v57 _
  congr 1
  funext a
  apply Fin.ext
  match a with
  | ⟨0, _⟩ => show win1_1.index t 0 * 256 + 1 * k.val = k.val; rw [e0]; omega
  | ⟨1, _⟩ => show win1_1.index t 1 * 128 + 1 * q.val = q.val; rw [e1]; omega

/-- The bias window's block is the whole bias vector at every point. -/
theorem read1_2 (c : Dev nD) (t : Fin cfg1.N) (q : Fin 128) :
    (iblk1 V c 2 t : Vec Ideal S128 .f32) (ix1 q) = bias1 V c (ix1 q) := by
  obtain ⟨-, -, -, -, e0, -⟩ := idx1 t
  unfold iblk1
  rw [View.read_apply]
  show V c main_arg5 _ = V c main_arg5 _
  congr 1
  funext a
  apply Fin.ext
  match a with
  | ⟨0, _⟩ => show win1_2.index t 0 * 128 + 1 * q.val = q.val; rw [e0]; omega

/-- Entry (p, q) of the output window's block at point t sits at row 5000·t + p, column q of the output array. -/
theorem emb1_3 (t : Fin cfg1.N) (p : Fin 5000) (q : Fin 128) :
    ((cfg1.win 3).blk t).view.emb (ix2 p q) = (ix2 ⟨t.val * 5000 + p.val, row1_lt t p⟩ q : S50000x128.Idx) := by
  obtain ⟨-, -, -, -, -, e0, e1⟩ := idx1 t
  funext a
  apply Fin.ext
  match a with
  | ⟨0, _⟩ => show win1_3.index t 0 * 5000 + 1 * p.val = t.val * 5000 + p.val; rw [e0]; omega
  | ⟨1, _⟩ => show win1_3.index t 1 * 128 + 1 * q.val = q.val; rw [e1]; omega

/-- What point t writes back is block t of the affine dense map of the WHOLE arrays: a row of the product only reads
    that row of the input, and the weight and bias blocks are the whole arrays. -/
theorem flushed1 (c : Dev nD) (t : Fin cfg1.N) :
    (dat1 V c).flushed 3 t
      = ((cfg1.win 3).blk t).view.read (Elt Ideal) (affine (inp1 V c) (wgt1 V c) (bias1 V c)) := by
  show (cfg1.win 3).cut (grid1.coords t) ((dat1 V c).after 3 t) = _
  rw [after1_3]
  unfold out1_3
  rw [View.canon_unit_zero hz2]
  simp only [View.ld_unit_zero (S := S5000x256) hz2, View.ld_unit_zero (S := S256x128) hz2, View.ld_unit_zero (S := S128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = affine (inp1 V c) (wgt1 V c) (bias1 V c) (((cfg1.win 3).blk t).view.emb (ix2 p q))
  rw [emb1_3 t p q]
  refine (congrFun (pay1_eq (iblk1 V c 0 t) (iblk1 V c 1 t) (iblk1 V c 2 t)) (ix2 p q)).trans ?_
  rw [affine_apply, affine_apply]
  simp only [read1_0 V c t p, read1_1 V c t, read1_2 V c t]

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v58).slice (win1_3.rect t)).set ↔ _
  rw [View.set_slice_whole, Rect.mem_set_unit]
  exact Iff.rfl

/-- Every row r of the output lies in the block of point r / 5000, which is written back. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, e0, e1⟩ := idx1 t
  refine ⟨t, flush1_3 t, ?_⟩
  rw [mem_blk1]
  intro a
  match a with
  | ⟨0, _⟩ =>
    show win1_3.index t 0 * 5000 ≤ (i 0).val ∧ (i 0).val < win1_3.index t 0 * 5000 + 5000
    rw [e0, ht]; omega
  | ⟨1, _⟩ =>
    show win1_3.index t 1 * 128 ≤ (i 1).val ∧ (i 1).val < win1_3.index t 1 * 128 + 128
    rw [e1]; omega

/-- So the region leaves its output array at the affine dense map of the arrays it found. -/
theorem final1 (c : Dev nD) :
    (dat1 V c).arrAt 3 cfg1.N = affine (inp1 V c) (wgt1 V c) (bias1 V c) :=
  (dat1 V c).arrAt_eq_of_cover 3 _ (fun t _ => flushed1 V c t) covered1

end Cert.KernelIdeal.Region1Value

end
-- ==== Proof.KernelValue.lean ====
/-
  What the idealized kernel program's result array holds, as a function of the six launch arrays.

  @main is four stretches of host operations around two kernel regions, and the contents at each boundary are a fold
  from the launch memory.  Read through that fold with Proof/KernelStretches.lean: the first region is entered with its
  input at one aggregation step of the features, its weight at W1 transposed and its bias at b1, and leaves the rectified
  dense layer of them (Proof/Region0Value.lean); no window of that region names the endpoints or the edge weights, so the
  stretch after it aggregates the region's output with the same ones; the second region is entered with that, W2 transposed
  and b2, and leaves the affine dense layer (Proof/Region1Value.lean).  That is the network of Proof/RefValue.lean.
-/
import proofs.«122775_j40226663694509_1_alg».proof.Proof.Gen.KernelIdeal.Frame
import proofs.«122775_j40226663694509_1_alg».proof.Proof.KernelStretches
import proofs.«122775_j40226663694509_1_alg».proof.Proof.Region0Value
import proofs.«122775_j40226663694509_1_alg».proof.Proof.Region1Value
import proofs.«122775_j40226663694509_1_alg».proof.Proof.RefValue

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen
open Cert.Lib.Dense Cert.SparseStage

variable (m : (ℓ : Loc nD τ sig) → Buf (Elt Ideal) ℓ) (ρ : Dev nD → PrngReg)

/-! ## The launch arrays at their literal types -/

abbrev edges (c : Dev nD) : (⟨Cert.ReferenceIdeal.S2x800000, .i32⟩ : BufTy).Contents (Elt Ideal) := m ((c : Thread nD τ).loc main_arg1)
abbrev feats (c : Dev nD) : (⟨Cert.ReferenceIdeal.S50000x128, .f32⟩ : BufTy).Contents (Elt Ideal) := m ((c : Thread nD τ).loc main_arg0)
abbrev w1 (c : Dev nD) : (⟨Cert.ReferenceIdeal.S256x128, .f32⟩ : BufTy).Contents (Elt Ideal) := m ((c : Thread nD τ).loc main_arg2)
abbrev b1 (c : Dev nD) : (⟨Cert.ReferenceIdeal.S256, .f32⟩ : BufTy).Contents (Elt Ideal) := m ((c : Thread nD τ).loc main_arg3)
abbrev w2 (c : Dev nD) : (⟨Cert.ReferenceIdeal.S128x256, .f32⟩ : BufTy).Contents (Elt Ideal) := m ((c : Thread nD τ).loc main_arg4)
abbrev b2 (c : Dev nD) : (⟨Cert.ReferenceIdeal.S128, .f32⟩ : BufTy).Contents (Elt Ideal) := m ((c : Thread nD τ).loc main_arg5)

/-! ## After the first stretch -/

theorem s1_row (c : Dev nD) : W1 m ρ c (Proc.devRef .tc main_v5) = rowIdx (edges m c) := Stretch.first_row (W0 m ρ c)
theorem s1_col (c : Dev nD) : W1 m ρ c (Proc.devRef .tc main_v6) = colIdx (edges m c) := Stretch.first_col (W0 m ρ c)
theorem s1_deg (c : Dev nD) : W1 m ρ c (Proc.devRef .tc main_v10) = degreeOf (rowIdx (edges m c)) := Stretch.first_deg (W0 m ρ c)
theorem s1_one (c : Dev nD) : W1 m ρ c (Proc.devRef .tc main_cst_1) = constant (F := Ideal) Cert.ReferenceIdeal.S_ .f32 0x3F800000#32 :=
  Stretch.first_one (W0 m ρ c)
theorem s1_x (c : Dev nD) : W1 m ρ c (Proc.devRef .tc main_arg0) = feats m c := Stretch.first_arg0 (W0 m ρ c)
theorem s1_w1 (c : Dev nD) : W1 m ρ c (Proc.devRef .tc main_arg2) = w1 m c := Stretch.first_arg2 (W0 m ρ c)
theorem s1_b1 (c : Dev nD) : W1 m ρ c (Proc.devRef .tc main_arg3) = b1 m c := Stretch.first_arg3 (W0 m ρ c)
theorem s1_w2 (c : Dev nD) : W1 m ρ c (Proc.devRef .tc main_arg4) = w2 m c := Stretch.first_arg4 (W0 m ρ c)
theorem s1_b2 (c : Dev nD) : W1 m ρ c (Proc.devRef .tc main_arg5) = b2 m c := Stretch.first_arg5 (W0 m ρ c)

/-! ## After the clip -/

theorem s2_clip (c : Dev nD) : W2 m ρ c (Proc.devRef .tc main_v11) = clippedDeg (edges m c) := by
  refine (Stretch.clip_deg (W1 m ρ c)).trans ?_
  rw [s1_one, s1_deg]
  rfl
theorem s2_row (c : Dev nD) : W2 m ρ c (Proc.devRef .tc main_v5) = rowIdx (edges m c) := (Stretch.clip_v5 (W1 m ρ c)).trans (s1_row m ρ c)
theorem s2_col (c : Dev nD) : W2 m ρ c (Proc.devRef .tc main_v6) = colIdx (edges m c) := (Stretch.clip_v6 (W1 m ρ c)).trans (s1_col m ρ c)
theorem s2_x (c : Dev nD) : W2 m ρ c (Proc.devRef .tc main_arg0) = feats m c := (Stretch.clip_arg0 (W1 m ρ c)).trans (s1_x m ρ c)
theorem s2_w1 (c : Dev nD) : W2 m ρ c (Proc.devRef .tc main_arg2) = w1 m c := (Stretch.clip_arg2 (W1 m ρ c)).trans (s1_w1 m ρ c)
theorem s2_b1 (c : Dev nD) : W2 m ρ c (Proc.devRef .tc main_arg3) = b1 m c := (Stretch.clip_arg3 (W1 m ρ c)).trans (s1_b1 m ρ c)
theorem s2_w2 (c : Dev nD) : W2 m ρ c (Proc.devRef .tc main_arg4) = w2 m c := (Stretch.clip_arg4 (W1 m ρ c)).trans (s1_w2 m ρ c)
theorem s2_b2 (c : Dev nD) : W2 m ρ c (Proc.devRef .tc main_arg5) = b2 m c := (Stretch.clip_arg5 (W1 m ρ c)).trans (s1_b2 m ρ c)

/-! ## The first region's entry contents -/

/-- The first region's input: one aggregation step of the features. -/
theorem entry0_inp (c : Dev nD) : W3 m ρ c (Proc.devRef .tc main_v41) = aggregate128 (edges m c) (feats m c) := by
  refine (Stretch.third_inp (W2 m ρ c)).trans ?_
  rw [s2_row, s2_col, s2_clip, s2_x]
  rfl

/-- Its weight: W1 transposed. -/
theorem entry0_wgt (c : Dev nD) :
    W3 m ρ c (Proc.devRef .tc main_v42) = transpose Cert.ReferenceIdeal.S128x256 [1, 0] (w1 m c) Cert.ReferenceIdeal.Gen.transposes_S256x128_S128x256_1_0 := by
  refine (Stretch.third_wgt (W2 m ρ c)).trans ?_
  rw [s2_w1]

/-- Its bias: b1. -/
theorem entry0_bias (c : Dev nD) : W3 m ρ c (Proc.devRef .tc main_arg3) = b1 m c :=
  (Stretch.third_arg3 (W2 m ρ c)).trans (s2_b1 m ρ c)

/-- What the stretch after the first region reads besides that region's output. -/
theorem entry0_row (c : Dev nD) : W3 m ρ c (Proc.devRef .tc main_v5) = rowIdx (edges m c) := (Stretch.third_v5 (W2 m ρ c)).trans (s2_row m ρ c)
theorem entry0_col (c : Dev nD) : W3 m ρ c (Proc.devRef .tc main_v6) = colIdx (edges m c) := (Stretch.third_v6 (W2 m ρ c)).trans (s2_col m ρ c)
theorem entry0_weight (c : Dev nD) : W3 m ρ c (Proc.devRef .tc main_v28) = edgeWeight (edges m c) := by
  refine (Stretch.third_weight (W2 m ρ c)).trans ?_
  rw [s2_row, s2_col, s2_clip]
  rfl
theorem entry0_w2 (c : Dev nD) : W3 m ρ c (Proc.devRef .tc main_arg4) = w2 m c := (Stretch.third_arg4 (W2 m ρ c)).trans (s2_w2 m ρ c)
theorem entry0_b2 (c : Dev nD) : W3 m ρ c (Proc.devRef .tc main_arg5) = b2 m c := (Stretch.third_arg5 (W2 m ρ c)).trans (s2_b2 m ρ c)

/-! ## The first region's exit -/

/-- The hidden layer: the rectified dense layer of the aggregated features. -/
abbrev hidden (c : Dev nD) : (⟨Cert.ReferenceIdeal.S50000x256, .f32⟩ : BufTy).Contents (Elt Ideal) :=
  rectified (aggregate128 (edges m c) (feats m c))
    (transpose Cert.ReferenceIdeal.S128x256 [1, 0] (w1 m c) Cert.ReferenceIdeal.Gen.transposes_S256x128_S128x256_1_0) (b1 m c)

theorem exit0_out (c : Dev nD) : W4 m ρ c (Proc.devRef .tc main_v43) = hidden m c := by
  refine (W4_arr m ρ c 3).trans ((Cert.KernelIdeal.Region0Value.final0 (V3 m ρ) c).trans ?_)
  show rectified (W3 m ρ c (Proc.devRef .tc main_v41)) (W3 m ρ c (Proc.devRef .tc main_v42)) (W3 m ρ c (Proc.devRef .tc main_arg3)) = _
  rw [entry0_inp, entry0_wgt, entry0_bias]

/-- The buffers no window of the first region names pass through it. -/
theorem exit0_row (c : Dev nD) : W4 m ρ c (Proc.devRef .tc main_v5) = rowIdx (edges m c) :=
  (W4_of_ne m ρ c main_v5 (by decide)).trans (entry0_row m ρ c)
theorem exit0_col (c : Dev nD) : W4 m ρ c (Proc.devRef .tc main_v6) = colIdx (edges m c) :=
  (W4_of_ne m ρ c main_v6 (by decide)).trans (entry0_col m ρ c)
theorem exit0_weight (c : Dev nD) : W4 m ρ c (Proc.devRef .tc main_v28) = edgeWeight (edges m c) :=
  (W4_of_ne m ρ c main_v28 (by decide)).trans (entry0_weight m ρ c)
theorem exit0_w2 (c : Dev nD) : W4 m ρ c (Proc.devRef .tc main_arg4) = w2 m c :=
  (W4_of_ne m ρ c main_arg4 (by decide)).trans (entry0_w2 m ρ c)
theorem exit0_b2 (c : Dev nD) : W4 m ρ c (Proc.devRef .tc main_arg5) = b2 m c :=
  (W4_of_ne m ρ c main_arg5 (by decide)).trans (entry0_b2 m ρ c)

/-! ## The second region's entry contents -/

/-- Its input: one aggregation step of the hidden layer. -/
theorem entry1_inp (c : Dev nD) : W5 m ρ c (Proc.devRef .tc main_v56) = aggregate256 (edges m c) (hidden m c) := by
  refine (Stretch.fourth_inp (W4 m ρ c)).trans ?_
  rw [exit0_out, exit0_row, exit0_col, exit0_weight]
  rfl

/-- Its weight: W2 transposed. -/
theorem entry1_wgt (c : Dev nD) :
    W5 m ρ c (Proc.devRef .tc main_v57) = transpose Cert.ReferenceIdeal.S256x128 [1, 0] (w2 m c) Cert.ReferenceIdeal.Gen.transposes_S128x256_S256x128_1_0 := by
  refine (Stretch.fourth_wgt (W4 m ρ c)).trans ?_
  rw [exit0_w2]

/-- Its bias: b2. -/
theorem entry1_bias (c : Dev nD) : W5 m ρ c (Proc.devRef .tc main_arg5) = b2 m c :=
  (Stretch.fourth_arg5 (W4 m ρ c)).trans (exit0_b2 m ρ c)

/-! ## The result -/

/-- The result array ends at the network of the launch arrays. -/
theorem result (c : Dev nD) :
    W6 m ρ c (Proc.devRef .tc main_v58)
      = Cert.RefValue.network (edges m c) (feats m c) (w1 m c) (b1 m c) (w2 m c) (b2 m c) := by
  refine (W6_arr m ρ c 3).trans ((Cert.KernelIdeal.Region1Value.final1 (V5 m ρ) c).trans ?_)
  show affine (W5 m ρ c (Proc.devRef .tc main_v56)) (W5 m ρ c (Proc.devRef .tc main_v57)) (W5 m ρ c (Proc.devRef .tc main_arg5)) = _
  rw [entry1_inp, entry1_wgt, entry1_bias]
  rfl

end Cert.KernelIdeal.ResultValue

end
-- ==== Proof.lean ====
/-
  The certificate of a two-layer graph convolution: out = Â·relu(Â·x·W1ᵀ + b1)·W2ᵀ + b2 over 50000 nodes, where Â is
  the degree-normalised adjacency (with self loops) built from an edge list of 800000 edges.

  Both programs build Â's edge weights and apply Â by the SAME host operations (gathers and scatter-adds over the edge
  list); they differ only in the two dense layers.  The kernel program runs each dense layer as a kernel over ten row
  blocks of 5000 nodes: the block times the whole transposed weight on the matrix unit (operands narrowed to bf16), plus
  the bias row, the first layer rectified.  The reference runs each as one dot_general plus a broadcast bias, the first
  followed by a maximum against zero.

  At the ideal values narrowing is the identity and a matrix product is its sum over the contracted axis, in either
  spelling; a row of the product reads one row of the input, so the ten blocks are the blocks of the whole-array dense
  layer and tile it.  Hence both programs end at one function of the six inputs, `Cert.RefValue.network`:
  aggregate, rectified dense layer, aggregate, affine dense layer.  No law of the extended reals beyond reading the sums
  is used, so the finiteness precondition is never opened.

  Modules: Proof/LibMatmul.lean, LibLayout.lean, LibDense.lean (the dense layer in both spellings, any sizes);
  Proof/SparseStage.lean (the shared aggregation, named; the reference's result over the names); Proof/RefValue.lean (the
  reference's result is the network); Proof/Region0Value.lean, Region1Value.lean (what each kernel region leaves, from any
  entry contents); Proof/KernelStretches.lean (each stretch of host operations as the shared functions of what it starts
  from); Proof/KernelIdealRun.lean (the kernel program's run with its result named); Proof/KernelValue.lean (that result
  is the network).  The three frames are the generated ones (the reference's: its generated run with the result dropped);
  the idealization rewrote nothing, so `preserves` is trivial.
-/
import proofs.«122775_j40226663694509_1_alg».proof.Defs
import proofs.«122775_j40226663694509_1_alg».proof.Proof.Gen.Kernel
import proofs.«122775_j40226663694509_1_alg».proof.Proof.Gen.Kernel.Skeleton
import proofs.«122775_j40226663694509_1_alg».proof.Proof.Gen.Kernel.Launch
import proofs.«122775_j40226663694509_1_alg».proof.Proof.Gen.Kernel.Points
import proofs.«122775_j40226663694509_1_alg».proof.Proof.Gen.Kernel.Frame
import proofs.«122775_j40226663694509_1_alg».proof.Proof.Gen.KernelIdeal
import proofs.«122775_j40226663694509_1_alg».proof.Proof.Gen.KernelIdeal.Skeleton
import proofs.«122775_j40226663694509_1_alg».proof.Proof.Gen.KernelIdeal.Launch
import proofs.«122775_j40226663694509_1_alg».proof.Proof.Gen.KernelIdeal.Points
import proofs.«122775_j40226663694509_1_alg».proof.Proof.Gen.KernelIdeal.Frame
import proofs.«122775_j40226663694509_1_alg».proof.Proof.Gen.ReferenceIdeal
import proofs.«122775_j40226663694509_1_alg».proof.Proof.Gen.ReferenceIdeal.Run
import proofs.«122775_j40226663694509_1_alg».proof.Proof.Gen.Pre_finite_inputs
import proofs.«122775_j40226663694509_1_alg».proof.Proof.SparseStage
import proofs.«122775_j40226663694509_1_alg».proof.Proof.RefValue
import proofs.«122775_j40226663694509_1_alg».proof.Proof.KernelIdealRun
import proofs.«122775_j40226663694509_1_alg».proof.Proof.KernelValue
import Idealize.ShloMosaic.Adequacy
import Idealize.ShloMosaic.Init

noncomputable section

namespace Cert.Proof

open Idealize.ShloMosaic Idealize.SL.Sem

/-- The word-level kernel program terminates without a fault and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six inputs both programs end with the result array at the network of those inputs. -/
theorem algebraic : Cert.algebraic_KernelIdeal_ReferenceIdeal := by
  intro m ρ m' ρ' _ hagree
  refine ⟨fun c => Cert.RefValue.network (Cert.KernelIdeal.ResultValue.edges m c) (Cert.KernelIdeal.ResultValue.feats m c)
    (Cert.KernelIdeal.ResultValue.w1 m c) (Cert.KernelIdeal.ResultValue.b1 m c)
    (Cert.KernelIdeal.ResultValue.w2 m c) (Cert.KernelIdeal.ResultValue.b2 m c), ?_, ?_⟩
  · exact (θ_run Cert.KernelIdeal.defs _ _).mono
      (fun _ h c => ⟨(h c).1.trans (Cert.KernelIdeal.ResultValue.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.SparseStage.res_eq, Cert.RefValue.refResult_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
